-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x500x8192 : Shape := ⟨3, ![1, 500, 8192]⟩
abbrev S8192x500 : Shape := ⟨2, ![8192, 500]⟩
abbrev S_ : Shape := ⟨0, ![]⟩

class Facts : Prop where
  bcast_S_S1x500x8192 : S_.BroadcastsInDim S1x500x8192 (![] : Fin 0 → Fin S1x500x8192.rank)
  reducesTo_S1x500x8192_S_d0_1_2 : S1x500x8192.ReducesTo [0, 1, 2] S_
  h_S_ : 0 < S_.numel
  bcast_S_S8192x500 : S_.BroadcastsInDim S8192x500 (![] : Fin 0 → Fin S8192x500.rank)
  reducesTo_S8192x500_S_d0_1 : S8192x500.ReducesTo [0, 1] S_

variable [Facts]

def fn {F : FTy → Type} [FloatOps F] (main_arg0 : FVec F S1x500x8192 .f32) (main_arg1 : FVec F S8192x500 .f32) (main_arg2 : FVec F S8192x500 .f32) : IVec S_ 1 :=
  let main_v0 : FVec F S1x500x8192 .f32 := Host.absf main_arg0
  let main_cst : FVec F S_ .f32 := constant S_ .f32 0x7F800000#32
  let main_v1 : FVec F S1x500x8192 .f32 := broadcastInDim S1x500x8192 ![] bcast_S_S1x500x8192 main_cst
  let main_v2 : IVec S1x500x8192 1 := cmpf .olt main_v0 main_v1
  let main_c : IVec S_ 1 := constantI S_ 1 1#1
  let main_v3 : IVec S_ 1 := (fun x v => Host.reduce IntOp.andi x v reducesTo_S1x500x8192_S_d0_1_2 h_S_) main_v2 main_c
  let main_v4 : FVec F S8192x500 .f32 := Host.absf main_arg1
  let main_cst_0 : FVec F S_ .f32 := constant S_ .f32 0x7F800000#32
  let main_v5 : FVec F S8192x500 .f32 := broadcastInDim S8192x500 ![] bcast_S_S8192x500 main_cst_0
  let main_v6 : IVec S8192x500 1 := cmpf .olt main_v4 main_v5
  let main_c_1 : IVec S_ 1 := constantI S_ 1 1#1
  let main_v7 : IVec S_ 1 := (fun x v => Host.reduce IntOp.andi x v reducesTo_S8192x500_S_d0_1 h_S_) main_v6 main_c_1
  let main_v8 : IVec S_ 1 := andi main_v3 main_v7
  let main_v9 : FVec F S8192x500 .f32 := Host.absf main_arg2
  let main_cst_2 : FVec F S_ .f32 := constant S_ .f32 0x7F800000#32
  let main_v10 : FVec F S8192x500 .f32 := broadcastInDim S8192x500 ![] bcast_S_S8192x500 main_cst_2
  let main_v11 : IVec S8192x500 1 := cmpf .olt main_v9 main_v10
  let main_c_3 : IVec S_ 1 := constantI S_ 1 1#1
  let main_v12 : IVec S_ 1 := (fun x v => Host.reduce IntOp.andi x v reducesTo_S8192x500_S_d0_1 h_S_) main_v11 main_c_3
  let main_v13 : IVec S_ 1 := andi main_v8 main_v12
  main_v13
-- ==== Kernel.lean ====
abbrev S1x500x8192 : Shape := ⟨3, ![1, 500, 8192]⟩
abbrev S8192x500 : Shape := ⟨2, ![8192, 500]⟩
abbrev S4x8192x500 : Shape := ⟨3, ![4, 8192, 500]⟩
abbrev S1x500x1024 : Shape := ⟨3, ![1, 500, 1024]⟩
abbrev S1024x500 : Shape := ⟨2, ![1024, 500]⟩
abbrev S4x1024x500 : Shape := ⟨3, ![4, 1024, 500]⟩
abbrev S500x1024 : Shape := ⟨2, ![500, 1024]⟩
abbrev S1x1024x500 : Shape := ⟨3, ![1, 1024, 500]⟩
abbrev S32768x500 : Shape := ⟨2, ![32768, 500]⟩

abbrev nBuf : Space → Nat
  | .hbm => 5
  | .vmem => 8
  | .smem => 0
  | _ => 0

abbrev bufTy : (tb : Table) → Fin (tcTables nBuf tb) → BufTy
  | .hbm, ⟨0, _⟩ => ⟨S1x500x8192, .f32⟩
  | .hbm, ⟨1, _⟩ => ⟨S8192x500, .f32⟩
  | .hbm, ⟨2, _⟩ => ⟨S8192x500, .f32⟩
  | .hbm, ⟨3, _⟩ => ⟨S4x8192x500, .f32⟩
  | .hbm, ⟨4, _⟩ => ⟨S32768x500, .f32⟩
  | .local _ .vmem, ⟨0, _⟩ => ⟨S1x500x1024, .f32⟩
  | .local _ .vmem, ⟨1, _⟩ => ⟨S1x500x1024, .f32⟩
  | .local _ .vmem, ⟨2, _⟩ => ⟨S1024x500, .f32⟩
  | .local _ .vmem, ⟨3, _⟩ => ⟨S1024x500, .f32⟩
  | .local _ .vmem, ⟨4, _⟩ => ⟨S1024x500, .f32⟩
  | .local _ .vmem, ⟨5, _⟩ => ⟨S1024x500, .f32⟩
  | .local _ .vmem, ⟨6, _⟩ => ⟨S4x1024x500, .f32⟩
  | .local _ .vmem, ⟨7, _⟩ => ⟨S4x1024x500, .f32⟩
  | _, _ => ⟨S1x500x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x500x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x500x1024_S1x500x1024_0_0_0 : ∀ a, (![0, 0, 0] : Fin 3 → Nat) a + S1x500x1024.size a ≤ S1x500x1024.size a
  h_S1x500x1024 : 0 < S1x500x1024.numel
  shapeCasts_S1x500x1024_S500x1024 : S1x500x1024.ShapeCasts S500x1024
  inb_S1024x500_S1024x500_0_0 : ∀ a, (![0, 0] : Fin 2 → Nat) a + S1024x500.size a ≤ S1024x500.size a
  h_S1024x500 : 0 < S1024x500.numel
  transposes_S500x1024_p1_0_S1024x500 : S500x1024.Transposes [1, 0] S1024x500
  inb_S4x1024x500_S1x1024x500_0_0_0 : ∀ a, (![0, 0, 0] : Fin 3 → Nat) a + S1x1024x500.size a ≤ S4x1024x500.size a
  h_S1x1024x500 : 0 < S1x1024x500.numel
  shapeCasts_S1x1024x500_S1024x500 : S1x1024x500.ShapeCasts S1024x500
  shapeCasts_S1024x500_S1x1024x500 : S1024x500.ShapeCasts S1x1024x500
  inb_S4x1024x500_S1x1024x500_1_0_0 : ∀ a, (![1, 0, 0] : Fin 3 → Nat) a + S1x1024x500.size a ≤ S4x1024x500.size a
  inb_S4x1024x500_S1x1024x500_2_0_0 : ∀ a, (![2, 0, 0] : Fin 3 → Nat) a + S1x1024x500.size a ≤ S4x1024x500.size a
  inb_S4x1024x500_S1x1024x500_3_0_0 : ∀ a, (![3, 0, 0] : Fin 3 → Nat) a + S1x1024x500.size a ≤ S4x1024x500.size a
  shapeCasts_S4x8192x500_S32768x500 : S4x8192x500.ShapeCasts S32768x500
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x500x1024.size a ≤ S1x500x8192.size a
  hwx0_0 : ∀ i : grid0.Coords, EltTy.bits .f32 = 32 ∨ (Rect.block (s := S1x500x8192) S1x500x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S8192x500.size a
  hwx0_1 : ∀ i : grid0.Coords, EltTy.bits .f32 = 32 ∨ (Rect.block (s := S8192x500) S1024x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x500.size a ≤ S8192x500.size a
  hwx0_2 : ∀ i : grid0.Coords, EltTy.bits .f32 = 32 ∨ (Rect.block (s := S8192x500) S1024x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x500.size a ≤ S4x8192x500.size a
  hwx0_3 : ∀ i : grid0.Coords, EltTy.bits .f32 = 32 ∨ (Rect.block (s := S4x8192x500) S4x1024x500.size (cc0_transform_3 i) (hinb0_3 i)).WholeWords (EltTy.packing .f32)

variable [Facts₀]

abbrev win0_0 : Pipeline.Window sig grid0 :=
  Pipeline.Window.ofSpec (Memref.whole main_arg0) S1x500x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1024x500.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x500x8192 : Shape := ⟨3, ![1, 500, 8192]⟩
abbrev S8192x500 : Shape := ⟨2, ![8192, 500]⟩
abbrev S500x8192 : Shape := ⟨2, ![500, 8192]⟩
abbrev S500x32768 : Shape := ⟨2, ![500, 32768]⟩
abbrev S32768x500 : Shape := ⟨2, ![32768, 500]⟩

abbrev nBuf : Space → Nat
  | .hbm => 10
  | .vmem => 0
  | .smem => 0
  | _ => 0

abbrev bufTy : (tb : Table) → Fin (tcTables nBuf tb) → BufTy
  | .hbm, ⟨0, _⟩ => ⟨S1x500x8192, .f32⟩
  | .hbm, ⟨1, _⟩ => ⟨S8192x500, .f32⟩
  | .hbm, ⟨2, _⟩ => ⟨S8192x500, .f32⟩
  | .hbm, ⟨3, _⟩ => ⟨S500x8192, .f32⟩
  | .hbm, ⟨4, _⟩ => ⟨S500x8192, .f32⟩
  | .hbm, ⟨5, _⟩ => ⟨S500x8192, .f32⟩
  | .hbm, ⟨6, _⟩ => ⟨S500x8192, .f32⟩
  | .hbm, ⟨7, _⟩ => ⟨S500x8192, .f32⟩
  | .hbm, ⟨8, _⟩ => ⟨S500x32768, .f32⟩
  | .hbm, ⟨9, _⟩ => ⟨S32768x500, .f32⟩
  | _, _ => ⟨S1x500x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S1x500x8192_S500x8192 : S1x500x8192.ShapeCasts S500x8192
  transposes_S8192x500_S500x8192_1_0 : S8192x500.Transposes [1, 0] S500x8192
  concatenates_S500x8192_S500x8192_S500x8192_S500x8192_S500x32768_d1 : Shape.Concatenates [S500x8192, S500x8192, S500x8192, S500x8192] S500x32768 1
  transposes_S500x32768_S32768x500_1_0 : S500x32768.Transposes [1, 0] S32768x500

variable [Facts₀]

class Facts : Prop extends Facts₀ where

variable [Facts]
-- ==== Proof.Merged.lean ====
/-
  The attention-flow merge as one function of its three arguments.

  For a context array `h` of shape [1, T, D] and two attention arrays `c`, `q` of shape [D, T]
  (T = 500 positions), the merged array has four slabs of shape [D, T], laid one after the other:
  slab 0 holds `h` transposed, slab 1 holds `c`, slab 2 the entrywise product of the transposed
  `h` with `c`, slab 3 its entrywise product with `q`. Entry (k, d, p) therefore depends on the
  single entries `h (0, p, d)`, `c (d, p)`, `q (d, p)` and on nothing else. The same formula, at the
  feature width of one block instead of the whole width, says what one block of 1024 features holds;
  both are instances of `slab` below, at the widths 8192 and 1024.
-/
import Idealize.ShloMosaic.Lib.ValueIdx
import Idealize.ShloMosaic.PureOps.Vector

namespace Cert.Merge

open Idealize.ShloMosaic Idealize.ShloMosaic.ValueIdx

variable {F : FTy → Type} [FloatOps F]

/-- Entry (k, d, p) of the merged array over a feature axis of width `D`: the transposed context
    entry, the first attention entry, or the product of the context entry with the first or the
    second attention entry, as the slab number `k` says (every `k` from 3 on reads as slab 3). -/
def slab (D : Nat) (h : (⟨3, ![1, 500, D]⟩ : Shape).Idx → F .f32) (c q : (⟨2, ![D, 500]⟩ : Shape).Idx → F .f32)
    (k : Nat) (d : Fin D) (p : Fin 500) : F .f32 :=
  match k with
  | 0 => h (ix3 (0 : Fin 1) p d)
  | 1 => c (ix2 d p)
  | 2 => FloatOps.mulf (h (ix3 (0 : Fin 1) p d)) (c (ix2 d p))
  | _ => FloatOps.mulf (h (ix3 (0 : Fin 1) p d)) (q (ix2 d p))

/-- The merged array over a feature axis of width `D`, as a [4, D, 500] array. -/
def merged (D : Nat) (h : (⟨3, ![1, 500, D]⟩ : Shape).Idx → F .f32) (c q : (⟨2, ![D, 500]⟩ : Shape).Idx → F .f32) :
    (⟨3, ![4, D, 500]⟩ : Shape).Idx → F .f32 :=
  fun i => slab D h c q (i 0).val (i 1) (i 2)

theorem merged_apply (D : Nat) (h : (⟨3, ![1, 500, D]⟩ : Shape).Idx → F .f32) (c q : (⟨2, ![D, 500]⟩ : Shape).Idx → F .f32)
    (k : Fin 4) (d : Fin D) (p : Fin 500) : merged D h c q (ix3 k d p) = slab D h c q k.val d p := rfl

/-- An entry of the merge depends on the three arrays only through the three entries it reads: two
    triples of arrays, over any two feature widths, that agree on those entries give the same value. -/
theorem slab_congr {D D' : Nat} (h : (⟨3, ![1, 500, D]⟩ : Shape).Idx → F .f32) (c q : (⟨2, ![D, 500]⟩ : Shape).Idx → F .f32)
    (h' : (⟨3, ![1, 500, D']⟩ : Shape).Idx → F .f32) (c' q' : (⟨2, ![D', 500]⟩ : Shape).Idx → F .f32)
    (k : Nat) (d : Fin D) (d' : Fin D') (p : Fin 500)
    (hh : h (ix3 (0 : Fin 1) p d) = h' (ix3 (0 : Fin 1) p d')) (hc : c (ix2 d p) = c' (ix2 d' p))
    (hq : q (ix2 d p) = q' (ix2 d' p)) :
    slab D h c q k d p = slab D' h' c' q' k d' p :=
  match k with
  | 0 => hh
  | 1 => hc
  | 2 => by show FloatOps.mulf _ _ = FloatOps.mulf _ _; rw [hh, hc]
  | (_ + 3) => by show FloatOps.mulf _ _ = FloatOps.mulf _ _; rw [hh, hq]

end Cert.Merge
-- ==== Proof.Block.lean ====
/-
  One block of the kernel's output is the merge of the three input blocks.

  At a grid point the body reads a [1, 500, 1024] block of the context array and [1024, 500] blocks of
  the two attention arrays, and fills its [4, 1024, 500] output block by four stores, one per slab.
  Each stored value, read at an entry (d, p) of its slab, is a single entry of the input blocks: the
  transpose reads the context block at (0, p, d), the two products multiply that entry by the
  attention entry at (d, p), and the casts between [1024, 500] and [1, 1024, 500] only add or drop the
  unit axis. So every store writes, on its slab, the values of one function of the block index, the
  merge at feature width 1024, and the four slabs tile the block: the block is that function.
-/
import proofs.«163242_j77283641524594_1_alg».proof.Proof.Gen.KernelIdeal.Frame
import proofs.«163242_j77283641524594_1_alg».proof.Proof.Merged
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.ValueIdx Cert.Merge

variable {F : FTy → Type} [FloatOps F]

/-- The transposed context block at (d, p) is the context block's entry (0, p, d): the transpose swaps
    the two coordinates and the cast before it drops the unit axis. -/
theorem transposed_apply (x0 : Vec F S1x500x1024 .f32) (d : Fin 1024) (p : Fin 500) :
    k0_pay1 x0 (ix2 d p) = x0 (ix3 (0 : Fin 1) p d) := by
  show transpose S1024x500 [1, 0] (shapeCast S500x1024 x0 shapeCasts_S1x500x1024_S500x1024) transposes_S500x1024_p1_0_S1024x500 (ix2 d p) = _
  refine (transpose_apply [1, 0] _ transposes_S500x1024_p1_0_S1024x500 (ix2 d p) (ix2 p d) (fun b => match b with
    | ⟨0, _⟩ => rfl
    | ⟨1, _⟩ => rfl)).trans ?_
  exact shapeCast_apply x0 shapeCasts_S1x500x1024_S500x1024 (ix2 p d) (ix3 (0 : Fin 1) p d)
    (by rewrite [Shape.rowMajor_val_three, Shape.rowMajor_val_two]; show (0 * 500 + p.val) * 1024 + d.val = p.val * 1024 + d.val; omega)

/-- A [1024, 500] value stored as a [1, 1024, 500] slab reads, at (z, d, p), its own entry (d, p). -/
theorem asSlab_apply (v : FVec F S1024x500 .f32) (z : Fin 1) (d : Fin 1024) (p : Fin 500) :
    shapeCast S1x1024x500 v shapeCasts_S1024x500_S1x1024x500 (ix3 z d p) = v (ix2 d p) :=
  shapeCast_apply v shapeCasts_S1024x500_S1x1024x500 (ix3 z d p) (ix2 d p)
    (by rewrite [Shape.rowMajor_val_three, Shape.rowMajor_val_two]; have hz : z.val < 1 := z.isLt
        show d.val * 500 + p.val = (z.val * 1024 + d.val) * 500 + p.val; omega)

/-- Slab 0's stored value: the transposed context block. -/
theorem store0_apply (x0 : Vec F S1x500x1024 .f32) (z : Fin 1) (d : Fin 1024) (p : Fin 500) :
    k0_pay2 x0 (ix3 z d p) = x0 (ix3 (0 : Fin 1) p d) :=
  (asSlab_apply (k0_pay1 x0) z d p).trans (transposed_apply x0 d p)

/-- Slab 1's stored value: the first attention block. -/
theorem store1_apply (x1 : Vec F S1024x500 .f32) (z : Fin 1) (d : Fin 1024) (p : Fin 500) :
    k0_pay3 x1 (ix3 z d p) = x1 (ix2 d p) :=
  asSlab_apply x1 z d p

/-- Slab 2's stored value: the transposed context block times the first attention block, entry by entry. -/
theorem store2_apply (x0 : Vec F S1x500x1024 .f32) (x1 : Vec F S1024x500 .f32) (z : Fin 1) (d : Fin 1024) (p : Fin 500) :
    k0_pay4 x0 x1 (ix3 z d p) = FloatOps.mulf (x0 (ix3 (0 : Fin 1) p d)) (x1 (ix2 d p)) :=
  (asSlab_apply (mulf (k0_pay1 x0) x1) z d p).trans (congrArg (fun a => FloatOps.mulf a (x1 (ix2 d p))) (transposed_apply x0 d p))

/-- Slab 3's stored value: the transposed context block times the second attention block, entry by entry. -/
theorem store3_apply (x0 : Vec F S1x500x1024 .f32) (x2 : Vec F S1024x500 .f32) (z : Fin 1) (d : Fin 1024) (p : Fin 500) :
    k0_pay5 x0 x2 (ix3 z d p) = FloatOps.mulf (x0 (ix3 (0 : Fin 1) p d)) (x2 (ix2 d p)) :=
  (asSlab_apply (mulf (k0_pay1 x0) x2) z d p).trans (congrArg (fun a => FloatOps.mulf a (x2 (ix2 d p))) (transposed_apply x0 d p))

/-- Where slab `k`'s rectangle places its entry (z, d, p) in the block: at (k, d, p). -/
theorem place (k : Nat) (hk : k < 4) (inb) (z : Fin 1) (d : Fin 1024) (p : Fin 500) :
    (Rect.unit (s := S4x1024x500) ![k, 0, 0] S1x1024x500.size inb).emb (ix3 z d p) = ix3 (⟨k, hk⟩ : Fin 4) d p := by
  funext a; apply Fin.ext
  have h0 : z.val < 1 := z.isLt
  match a with
  | ⟨0, _⟩ => show k + 1 * z.val = k; omega
  | ⟨1, _⟩ => show 0 + 1 * d.val = d.val; omega
  | ⟨2, _⟩ => show 0 + 1 * p.val = p.val; omega

theorem zeros3 : (![0, 0, 0] : Fin 3 → Nat) = fun _ => 0 := funext fun a => by fin_cases a <;> rfl
theorem zeros2 : (![0, 0] : Fin 2 → Nat) = fun _ => 0 := funext fun a => by fin_cases a <;> rfl

/-- THE BLOCK: what the body leaves in its output block is the merge, at feature width 1024, of the three
    input blocks. Every store's value agrees with the merge on its slab, and the slabs cover the block. -/
theorem out_eq (x0 : Vec F S1x500x1024 .f32) (x1 x2 : Vec F S1024x500 .f32) :
    out0_3 x0 x1 x2 = merged 1024 x0 x1 x2 := by
  funext y
  unfold out0_3
  refine View.canon_apply_of_pieces (merged 1024 x0 x1 x2) _ ?_ y (cover0_3 _ _ _ _ y)
  intro pc hpc x
  simp only [List.mem_cons, List.mem_nil_iff, or_false] at hpc
  rcases hpc with rfl | rfl | rfl | rfl
  · obtain ⟨z, d, p, rfl⟩ : ∃ (z : Fin 1) (d : Fin 1024) (p : Fin 500), x = ix3 z d p := ⟨x 0, x 1, x 2, eq_ix3 x⟩
    show k0_pay5 (View.ld x0 r0_0) (View.ld x2 r0_1) (ix3 z d p) = merged 1024 x0 x1 x2 (r0_5.emb (ix3 z d p))
    rw [place 3 (by decide) _ z d p, merged_apply, View.ld_unit_zero (S := S1x500x1024) zeros3, View.ld_unit_zero (S := S1024x500) zeros2]
    exact store3_apply x0 x2 z d p
  · obtain ⟨z, d, p, rfl⟩ : ∃ (z : Fin 1) (d : Fin 1024) (p : Fin 500), x = ix3 z d p := ⟨x 0, x 1, x 2, eq_ix3 x⟩
    show k0_pay4 (View.ld x0 r0_0) (View.ld x1 r0_1) (ix3 z d p) = merged 1024 x0 x1 x2 (r0_4.emb (ix3 z d p))
    rw [place 2 (by decide) _ z d p, merged_apply, View.ld_unit_zero (S := S1x500x1024) zeros3, View.ld_unit_zero (S := S1024x500) zeros2]
    exact store2_apply x0 x1 z d p
  · obtain ⟨z, d, p, rfl⟩ : ∃ (z : Fin 1) (d : Fin 1024) (p : Fin 500), x = ix3 z d p := ⟨x 0, x 1, x 2, eq_ix3 x⟩
    show k0_pay3 (View.ld x1 r0_1) (ix3 z d p) = merged 1024 x0 x1 x2 (r0_3.emb (ix3 z d p))
    rw [place 1 (by decide) _ z d p, merged_apply, View.ld_unit_zero (S := S1024x500) zeros2]
    exact store1_apply x1 z d p
  · obtain ⟨z, d, p, rfl⟩ : ∃ (z : Fin 1) (d : Fin 1024) (p : Fin 500), x = ix3 z d p := ⟨x 0, x 1, x 2, eq_ix3 x⟩
    show k0_pay2 (View.ld x0 r0_0) (ix3 z d p) = merged 1024 x0 x1 x2 (r0_2.emb (ix3 z d p))
    rw [place 0 (by decide) _ z d p, merged_apply, View.ld_unit_zero (S := S1x500x1024) zeros3]
    exact store0_apply x0 z d p

end Cert.KernelIdeal.Block

end
-- ==== Proof.Whole.lean ====
/-
  From the kernel's blocks to its whole output array.

  The grid has eight points. At point `t` the context window is block (0, 0, t) of [1, 500, 8192] in blocks
  of [1, 500, 1024], each attention window is block (t, 0) of [8192, 500] in blocks of [1024, 500], and the
  output window is block (0, t, 0) of [4, 8192, 500] in blocks of [4, 1024, 500]: feature `d` of a block is
  feature `1024 t + d` of its array, and the other coordinates are the array's own. Since an entry of the
  merge reads its arguments at its own feature and position only, the merge of the three input blocks at
  point `t` is block `t` of the merge of the three whole arrays. The eight output blocks tile the array
  (feature `e` lies in block `e / 1024`), so after the region the array is the merge of the arguments.
-/
import proofs.«163242_j77283641524594_1_alg».proof.Proof.Block

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Merge
open Idealize.ShloMosaic.Pipeline (Dat)

variable {F : FTy → Type} [FloatOps F]
variable (m : (ℓ : Loc nD τ sig) → Buf (Elt F) ℓ) (ρ : Dev nD → PrngReg)

/-- The printed index maps in closed form, decided over the eight grid points: only the feature axis moves,
    and it moves with the point's number. -/
theorem index_facts : ∀ t : Fin cfg0.N,
    win0_0.index t (0 : Fin 3) = 0 ∧ win0_0.index t (1 : Fin 3) = 0 ∧ win0_0.index t (2 : Fin 3) = t.val
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Feature `d` of block `t` is feature `1024 t + d` of the array. -/
def feat (t : Fin cfg0.N) (d : Fin 1024) : Fin 8192 :=
  ⟨t.val * 1024 + d.val, by have ht : t.val < 8 := N_0 ▸ t.isLt; have hd := d.isLt; omega⟩

/-- The context array as the region finds it, at its literal type. -/
abbrev harr (c : Dev nD) : Vec F S1x500x8192 .f32 := V m c main_arg0
/-- The first attention array as the region finds it. -/
abbrev carr (c : Dev nD) : Vec F S8192x500 .f32 := V m c main_arg1
/-- The second attention array as the region finds it. -/
abbrev qarr (c : Dev nD) : Vec F S8192x500 .f32 := V m c main_arg2

/-- The context window's block at point `t`, at (0, p, d), is the array's entry (0, p, 1024 t + d). -/
theorem hblk_apply (c : Dev nD) (t : Fin cfg0.N) (p : Fin 500) (d : Fin 1024) :
    iblk m c 0 t (ix3 (0 : Fin 1) p d) = harr m c (ix3 (0 : Fin 1) p (feat t d)) := by
  obtain ⟨e0, e1, e2, -⟩ := index_facts t
  show V m c main_arg0 (((cfg0.win 0).blk t).view.emb (ix3 (0 : Fin 1) p d)) = V m c main_arg0 (ix3 (0 : Fin 1) p (feat t d))
  refine congrArg (V m c main_arg0) (funext fun a => Fin.ext ?_)
  match a with
  | ⟨0, _⟩ => show win0_0.index t (0 : Fin 3) * 1 + 1 * 0 = 0; omega
  | ⟨1, _⟩ => show win0_0.index t (1 : Fin 3) * 500 + 1 * p.val = p.val; omega
  | ⟨2, _⟩ => show win0_0.index t (2 : Fin 3) * 1024 + 1 * d.val = t.val * 1024 + d.val; omega

/-- The first attention window's block at point `t`, at (d, p), is the array's entry (1024 t + d, p). -/
theorem cblk_apply (c : Dev nD) (t : Fin cfg0.N) (d : Fin 1024) (p : Fin 500) :
    iblk m c 1 t (ix2 d p) = carr m c (ix2 (feat t d) p) := by
  obtain ⟨-, -, -, e0, e1, -⟩ := index_facts t
  show V m c main_arg1 (((cfg0.win 1).blk t).view.emb (ix2 d p)) = V m c main_arg1 (ix2 (feat t d) p)
  refine congrArg (V m c main_arg1) (funext fun a => Fin.ext ?_)
  match a with
  | ⟨0, _⟩ => show win0_1.index t (0 : Fin 2) * 1024 + 1 * d.val = t.val * 1024 + d.val; omega
  | ⟨1, _⟩ => show win0_1.index t (1 : Fin 2) * 500 + 1 * p.val = p.val; omega

/-- The second attention window's block at point `t`, at (d, p), is the array's entry (1024 t + d, p). -/
theorem qblk_apply (c : Dev nD) (t : Fin cfg0.N) (d : Fin 1024) (p : Fin 500) :
    iblk m c 2 t (ix2 d p) = qarr m c (ix2 (feat t d) p) := by
  obtain ⟨-, -, -, -, -, e0, e1, -⟩ := index_facts t
  show V m c main_arg2 (((cfg0.win 2).blk t).view.emb (ix2 d p)) = V m c main_arg2 (ix2 (feat t d) p)
  refine congrArg (V m c main_arg2) (funext fun a => Fin.ext ?_)
  match a with
  | ⟨0, _⟩ => show win0_2.index t (0 : Fin 2) * 1024 + 1 * d.val = t.val * 1024 + d.val; omega
  | ⟨1, _⟩ => show win0_2.index t (1 : Fin 2) * 500 + 1 * p.val = p.val; omega

/-- The output window's block at point `t` places its entry (k, d, p) at the array's (k, 1024 t + d, p). -/
theorem oblk_emb (t : Fin cfg0.N) (k : Fin 4) (d : Fin 1024) (p : Fin 500) :
    ((cfg0.win 3).blk t).view.emb (ix3 k d p) = ix3 k (feat t d) p := by
  obtain ⟨-, -, -, -, -, -, -, e0, e1, e2⟩ := index_facts t
  refine funext fun a => Fin.ext ?_
  match a with
  | ⟨0, _⟩ => show win0_3.index t (0 : Fin 3) * 4 + 1 * k.val = k.val; omega
  | ⟨1, _⟩ => show win0_3.index t (1 : Fin 3) * 1024 + 1 * d.val = t.val * 1024 + d.val; omega
  | ⟨2, _⟩ => show win0_3.index t (2 : Fin 3) * 500 + 1 * p.val = p.val; omega

/-- WHAT POINT `t` WRITES BACK is block `t` of the merge of the three argument arrays. -/
theorem flushed_eq (c : Dev nD) (t : Fin cfg0.N) :
    (dats m 0 c).flushed 3 t
      = ((cfg0.win 3).blk t).view.read (Elt F) (merged 8192 (harr m c) (carr m c) (qarr m c)) := by
  show (cfg0.win 3).cut (grid0.coords t) ((dats m 0 c).after 3 t) = _
  rw [after0_3, Block.out_eq]
  funext j
  obtain ⟨k, d, p, rfl⟩ : ∃ (k : Fin 4) (d : Fin 1024) (p : Fin 500), j = ix3 k d p := ⟨j 0, j 1, j 2, eq_ix3 j⟩
  show merged 1024 (iblk m c 0 t) (iblk m c 1 t) (iblk m c 2 t) (ix3 k d p)
    = merged 8192 (harr m c) (carr m c) (qarr m c) (((cfg0.win 3).blk t).view.emb (ix3 k d p))
  rw [oblk_emb t k d p, merged_apply, merged_apply]
  exact slab_congr _ _ _ _ _ _ k.val d (feat t d) p (hblk_apply m c t p d) (cblk_apply m c t d p) (qblk_apply m c t d p)

/-- An index of the output array is in point `t`'s block iff each coordinate is in the block's range. -/
theorem mem_blk (t : Fin cfg0.N) (i : S4x8192x500.Idx) :
    i ∈ ((cfg0.win 3).blk t).view.set ↔ ∀ a : Fin 3, win0_3.index t a * S4x1024x500.size a ≤ (i a).val ∧ (i a).val < win0_3.index t a * S4x1024x500.size a + S4x1024x500.size a := by
  show i ∈ ((View.whole main_v0).slice (win0_3.rect t)).set ↔ _
  rw [View.set_slice_whole, Rect.mem_set_unit]
  exact Iff.rfl

/-- The eight blocks tile the array: feature `e` is in the block of point `e / 1024`. -/
theorem covered (i : S4x8192x500.Idx) :
    ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 500 := (i 2).isLt
  let t : Fin cfg0.N := ⟨(i 1).val / 1024, by show (i 1).val / 1024 < grid0.N; rw [N_0]; omega⟩
  have ht : t.val = (i 1).val / 1024 := rfl
  obtain ⟨-, -, -, -, -, -, -, e0, e1, e2⟩ := index_facts t
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 500 ≤ (i 2).val ∧ (i 2).val < win0_3.index t (2 : Fin 3) * 500 + 500; omega

/-- THE ARRAY after the region: the merge of the three argument arrays. -/
theorem final (c : Dev nD) :
    (dats m 0 c).arrAt 3 cfg0.N = merged 8192 (harr m c) (carr m c) (qarr m c) :=
  (dats m 0 c).arrAt_eq_of_cover 3 (merged 8192 (harr m c) (carr m c) (qarr m c)) (fun t _ => flushed_eq m c t) covered

end Cert.KernelIdeal.Whole

end
-- ==== Proof.KernelValue.lean ====
/-
  The kernel's result as one function of its arguments.

  After the region the host reshapes the [4, 8192, 500] output array to [32768, 500]: the slabs are laid one
  under the other, which moves no entry in row-major order. The region's output array is the merge of the
  three arguments, so the program's result is the reshape of that merge, and the arguments are as launched.
-/
import proofs.«163242_j77283641524594_1_alg».proof.Proof.Whole
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Cert.Merge
open Idealize.ShloMosaic.Pipeline (Dat)

variable {F : FTy → Type} [FloatOps F]
variable (m : (ℓ : Loc nD τ sig) → Buf (Elt F) ℓ) (ρ : Dev nD → PrngReg)

/-- The result buffer is no window's array and is not scoped: the region leaves it to the host line after it. -/
theorem result_rest : main_v1 ∈ Pipeline.restRefs sig (cfgs 0).spec :=
  Pipeline.mem_restRefs_of main_v1 rfl (fun w => by fin_cases w <;> decide)

/-- What the host line after the region leaves in the result buffer: the reshape of the region's output array. -/
theorem tail_eq (c : Dev nD) :
    Pipeline.afterTail₀ cfgs (dats m) 0 (V0 m) [hostOps1] c main_v1
      = shapeCast S32768x500 ((dats m 0 c).arrAt 3 cfg0.N) shapeCasts_S4x8192x500_S32768x500 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (dats m 0 c).arrAt 3 cfg0.N :=
    Pipeline.withArrays_arr spec0 launch0.win.arr_inj c _ _ 3
  rw [e]
  rfl

/-- The merged array laid out as the program's [32768, 500] result. -/
abbrev result (h : Vec F S1x500x8192 .f32) (c q : Vec F S8192x500 .f32) : Vec F S32768x500 .f32 :=
  shapeCast S32768x500 (merged 8192 h c q) shapeCasts_S4x8192x500_S32768x500

/-- THE RUN: every weakly fair execution terminates with the result buffer at the reshaped merge of the three
    arguments as launched, and with the arguments unchanged. -/
theorem run : θ_run defs (onTc (τ := τ) (main (F := F))) ⟨m, fun _ => 0, ρ⟩ fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 result_rest).trans ((tail_eq m c).trans (by rw [Whole.final]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.ReferenceValue.lean ====
/-
  The reference's result is the reshaped merge.

  The reference lays the context array [500, 8192] (position by feature), the two transposed attention arrays
  and the two entrywise products side by side along the feature axis, giving [500, 32768], and transposes the
  result to [32768, 500]. Row `r = 8192 k + d` of the result, at position `p`, is therefore piece `k` of the
  concatenation at (p, d): the context entry (0, p, d), the first attention entry (d, p), or the product of the
  context entry with the first or the second attention entry. The reshape of the [4, 8192, 500] merge to
  [32768, 500] puts entry (k, d, p) at the same row `8192 k + d` and position `p`. Both arrays are thus
  `slab 8192` at `(r / 8192, r % 8192, p)`, whatever the arithmetic of the float format.
-/
import proofs.«163242_j77283641524594_1_alg».proof.Proof.Gen.ReferenceIdeal.Read
import proofs.«163242_j77283641524594_1_alg».proof.Proof.Merged
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Merge

variable {F : FTy → Type} [FloatOps F]

/-- The feature of row `r`: its remainder by the feature width. -/
def featOf (r : Fin 32768) : Fin 8192 := ⟨r.val % 8192, Nat.mod_lt _ (by decide)⟩

/-- The context array viewed [500, 8192] reads, at (p, d), its entry (0, p, d). -/
theorem ctx_apply (x0 : Vec F S1x500x8192 .f32) (p : Fin 500) (d : Fin 8192) :
    val_main_v0 (F := F) x0 (ix2 p d) = x0 (ix3 (0 : Fin 1) p d) := by
  rw [val_main_v0_apply]
  refine congrArg x0 (funext fun a => Fin.ext ?_)
  have hp := p.isLt; have hd := d.isLt
  match a with
  | ⟨0, _⟩ => rfl
  | ⟨1, _⟩ => show (p.val * 8192 + d.val) / 8192 % 500 = p.val; omega
  | ⟨2, _⟩ => show (p.val * 8192 + d.val) % 8192 = d.val; omega

/-- The first attention array transposed reads, at (p, d), its entry (d, p). -/
theorem att1_apply (x1 : Vec F S8192x500 .f32) (p : Fin 500) (d : Fin 8192) :
    val_main_v1 (F := F) x1 (ix2 p d) = x1 (ix2 d p) := by
  rw [val_main_v1_apply]
  exact congrArg x1 (funext fun a => match a with | ⟨0, _⟩ => rfl | ⟨1, _⟩ => rfl)

/-- The second attention array transposed reads, at (p, d), its entry (d, p). -/
theorem att2_apply (x2 : Vec F S8192x500 .f32) (p : Fin 500) (d : Fin 8192) :
    val_main_v2 (F := F) x2 (ix2 p d) = x2 (ix2 d p) := by
  rw [val_main_v2_apply]
  exact congrArg x2 (funext fun a => match a with | ⟨0, _⟩ => rfl | ⟨1, _⟩ => rfl)

/-- Piece `k` of the concatenation, at position `p` and feature `d`, is the merge's entry (k, d, p). -/
theorem piece0 (x0 : Vec F S1x500x8192 .f32) (x1 x2 : Vec F S8192x500 .f32) (p : Fin 500) (d : Fin 8192) :
    val_main_v0 (F := F) x0 (ix2 p d) = slab 8192 x0 x1 x2 0 d p := ctx_apply x0 p d
theorem piece1 (x0 : Vec F S1x500x8192 .f32) (x1 x2 : Vec F S8192x500 .f32) (p : Fin 500) (d : Fin 8192) :
    val_main_v1 (F := F) x1 (ix2 p d) = slab 8192 x0 x1 x2 1 d p := att1_apply x1 p d
theorem piece2 (x0 : Vec F S1x500x8192 .f32) (x1 x2 : Vec F S8192x500 .f32) (p : Fin 500) (d : Fin 8192) :
    val_main_v3 (F := F) x0 x1 (ix2 p d) = slab 8192 x0 x1 x2 2 d p := by
  rw [val_main_v3_apply, ctx_apply, att1_apply]; rfl
theorem piece3 (x0 : Vec F S1x500x8192 .f32) (x1 x2 : Vec F S8192x500 .f32) (p : Fin 500) (d : Fin 8192) :
    val_main_v4 (F := F) x0 x2 (ix2 p d) = slab 8192 x0 x1 x2 3 d p := by
  rw [val_main_v4_apply, ctx_apply, att2_apply]; rfl

/-- The concatenation's four pieces, in order. -/
abbrev pieces (x0 : Vec F S1x500x8192 .f32) (x1 x2 : Vec F S8192x500 .f32) : List ((s : Shape) × (s.Idx → F .f32)) :=
  [⟨S500x8192, val_main_v0 (F := F) x0⟩, ⟨S500x8192, val_main_v1 (F := F) x1⟩, ⟨S500x8192, val_main_v3 (F := F) x0 x1⟩, ⟨S500x8192, val_main_v4 (F := F) x0 x2⟩]

/-- The joined array at position `p` and column `r = 8192 k + d` is piece `k` at (p, d). -/
theorem joined_apply (x0 : Vec F S1x500x8192 .f32) (x1 x2 : Vec F S8192x500 .f32) (p : Fin 500) (r : Fin 32768) :
    val_main_v5 (F := F) x0 x1 x2 (ix2 p r) = slab 8192 x0 x1 x2 (r.val / 8192) (featOf r) p := by
  have hr := r.isLt
  have hk : r.val / 8192 = 0 ∨ r.val / 8192 = 1 ∨ r.val / 8192 = 2 ∨ r.val / 8192 = 3 := by omega
  have hi : ∀ b : Fin S500x8192.rank, b.cast (rfl : S500x8192.rank = S500x32768.rank) ≠ (1 : Fin S500x32768.rank) →
      ((ix2 p (featOf r) : S500x8192.Idx) b).val = ((ix2 p r : S500x32768.Idx) (b.cast rfl)).val := fun b =>
    match b with
    | ⟨0, _⟩ => fun _ => rfl
    | ⟨1, _⟩ => fun h => absurd rfl h
  unfold val_main_v5
  rcases hk with hk | hk | hk | hk
  · rw [hk]
    refine (concatenate_apply_piece (1 : Fin S500x32768.rank) (pieces x0 x1 x2) concatenates_S500x8192_S500x8192_S500x8192_S500x8192_S500x32768_d1
      (ix2 p r) 0 (by show (0 : Nat) < 4; omega) S500x8192 (val_main_v0 (F := F) x0) rfl rfl 0 rfl (ix2 p (featOf r)) hi ?_).trans (piece0 x0 x1 x2 p (featOf r))
    show 0 + r.val % 8192 = r.val; omega
  · rw [hk]
    refine (concatenate_apply_piece (1 : Fin S500x32768.rank) (pieces x0 x1 x2) concatenates_S500x8192_S500x8192_S500x8192_S500x8192_S500x32768_d1
      (ix2 p r) 1 (by show (1 : Nat) < 4; omega) S500x8192 (val_main_v1 (F := F) x1) rfl rfl 8192 (by show (8192 + 0 : Nat) = 8192; omega) (ix2 p (featOf r)) hi ?_).trans (piece1 x0 x1 x2 p (featOf r))
    show 8192 + r.val % 8192 = r.val; omega
  · rw [hk]
    refine (concatenate_apply_piece (1 : Fin S500x32768.rank) (pieces x0 x1 x2) concatenates_S500x8192_S500x8192_S500x8192_S500x8192_S500x32768_d1
      (ix2 p r) 2 (by show (2 : Nat) < 4; omega) S500x8192 (val_main_v3 (F := F) x0 x1) rfl rfl 16384 (by show (8192 + (8192 + 0) : Nat) = 16384; omega) (ix2 p (featOf r)) hi ?_).trans (piece2 x0 x1 x2 p (featOf r))
    show 16384 + r.val % 8192 = r.val; omega
  · rw [hk]
    refine (concatenate_apply_piece (1 : Fin S500x32768.rank) (pieces x0 x1 x2) concatenates_S500x8192_S500x8192_S500x8192_S500x8192_S500x32768_d1
      (ix2 p r) 3 (by show (3 : Nat) < 4; omega) S500x8192 (val_main_v4 (F := F) x0 x2) rfl rfl 24576 (by show (8192 + (8192 + (8192 + 0)) : Nat) = 24576; omega) (ix2 p (featOf r)) hi ?_).trans (piece3 x0 x1 x2 p (featOf r))
    show 24576 + r.val % 8192 = r.val; omega

/-- The reference's result at row `r` and position `p`. -/
theorem ref_apply (x0 : Vec F S1x500x8192 .f32) (x1 x2 : Vec F S8192x500 .f32) (r : Fin 32768) (p : Fin 500) :
    val_main_v6 (F := F) x0 x1 x2 (ix2 r p) = slab 8192 x0 x1 x2 (r.val / 8192) (featOf r) p := by
  rw [val_main_v6_apply]
  refine (congrArg (val_main_v5 (F := F) x0 x1 x2) (funext fun a => match a with | ⟨0, _⟩ => rfl | ⟨1, _⟩ => rfl : idx_main_v6 (ix2 r p) = ix2 p r)).trans ?_
  exact joined_apply x0 x1 x2 p r

/-- The [4, 8192, 500] merge reshaped to [32768, 500], at row `r` and position `p`: the merge's entry
    (r / 8192, r % 8192, p), which has the same row-major position. -/
theorem reshaped_apply (x0 : Vec F S1x500x8192 .f32) (x1 x2 : Vec F S8192x500 .f32)
    (hsc : (⟨3, ![4, 8192, 500]⟩ : Shape).ShapeCasts S32768x500) (r : Fin 32768) (p : Fin 500) :
    shapeCast S32768x500 (merged 8192 x0 x1 x2) hsc (ix2 r p) = slab 8192 x0 x1 x2 (r.val / 8192) (featOf r) p := by
  have hr := r.isLt
  refine (shapeCast_apply (merged 8192 x0 x1 x2) hsc (ix2 r p)
    (ix3 (⟨r.val / 8192, by omega⟩ : Fin 4) (featOf r) p) ?_).trans (merged_apply 8192 x0 x1 x2 _ _ _)
  rewrite [Shape.rowMajor_val_three, Shape.rowMajor_val_two]
  show (r.val / 8192 * 8192 + r.val % 8192) * 500 + p.val = r.val * 500 + p.val
  have := Nat.div_add_mod r.val 8192
  omega

/-- THE REFERENCE'S RESULT is the reshaped merge of its three arguments. -/
theorem result_eq (x0 : Vec F S1x500x8192 .f32) (x1 x2 : Vec F S8192x500 .f32)
    (hsc : (⟨3, ![4, 8192, 500]⟩ : Shape).ShapeCasts S32768x500) :
    val_main_v6 (F := F) x0 x1 x2 = shapeCast S32768x500 (merged 8192 x0 x1 x2) hsc := by
  funext j
  obtain ⟨r, p, rfl⟩ : ∃ (r : Fin 32768) (p : Fin 500), j = ix2 r p := ⟨j 0, j 1, eq_ix2 j⟩
  rw [ref_apply, reshaped_apply]

end Cert.ReferenceIdeal.RefValue

end
-- ==== Proof.lean ====
/-
  The attention-flow merge kernel against its reference: the proof of `Cert.Claim`.

  For a context array `h` [1, 500, 8192] and attention arrays `c2q`, `q2c` [8192, 500], both programs return
  the [32768, 500] array whose row `8192 k + d`, at position `p`, is `h (0, p, d)` for k = 0, `c2q (d, p)` for
  k = 1, `h (0, p, d) · c2q (d, p)` for k = 2 and `h (0, p, d) · q2c (d, p)` for k = 3. The kernel fills a
  [4, 8192, 500] array block by block over eight blocks of 1024 features — each block is the same formula at
  the block's features, and the blocks tile the array — and the host reshapes it to [32768, 500]; the reference
  concatenates the four [500, 8192] pieces along the feature axis and transposes. Entry by entry the two
  results are one expression in the same single entries of the arguments, with the products' factors in the
  same order, so they are equal as they stand: no law of arithmetic is used, and the inputs' finiteness is
  never opened.

  The three frames are the generated ones (the reference's is its generated run with the result dropped);
  the idealization rewrote nothing, so `preserves` is trivial.
-/
import proofs.«163242_j77283641524594_1_alg».proof.Defs
import proofs.«163242_j77283641524594_1_alg».proof.Proof.Gen.Kernel
import proofs.«163242_j77283641524594_1_alg».proof.Proof.Gen.Kernel.Skeleton
import proofs.«163242_j77283641524594_1_alg».proof.Proof.Gen.Kernel.Launch
import proofs.«163242_j77283641524594_1_alg».proof.Proof.Gen.Kernel.Points
import proofs.«163242_j77283641524594_1_alg».proof.Proof.Gen.Kernel.Frame
import proofs.«163242_j77283641524594_1_alg».proof.Proof.Gen.KernelIdeal
import proofs.«163242_j77283641524594_1_alg».proof.Proof.Gen.KernelIdeal.Skeleton
import proofs.«163242_j77283641524594_1_alg».proof.Proof.Gen.KernelIdeal.Launch
import proofs.«163242_j77283641524594_1_alg».proof.Proof.Gen.KernelIdeal.Points
import proofs.«163242_j77283641524594_1_alg».proof.Proof.Gen.KernelIdeal.Frame
import proofs.«163242_j77283641524594_1_alg».proof.Proof.Gen.ReferenceIdeal
import proofs.«163242_j77283641524594_1_alg».proof.Proof.Gen.ReferenceIdeal.Run
import proofs.«163242_j77283641524594_1_alg».proof.Proof.Gen.ReferenceIdeal.Read
import proofs.«163242_j77283641524594_1_alg».proof.Proof.Gen.Pre_finite_inputs
import proofs.«163242_j77283641524594_1_alg».proof.Proof.KernelValue
import proofs.«163242_j77283641524594_1_alg».proof.Proof.ReferenceValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reshaped merge of the three arguments: the kernel by its run read block by block
    and through the reshape after the region, the reference by its run read one operation at a time. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v6_eq]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
